-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x200 : Shape := ⟨2, ![16384, 200]⟩
abbrev S200x64 : Shape := ⟨2, ![200, 64]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel
  bcast_S_S200x64 : S_.BroadcastsInDim S200x64 (![] : Fin 0 → Fin S200x64.rank)
  reducesTo_S200x64_S_d0_1 : S200x64.ReducesTo [0, 1] S_

variable [Facts]

def fn {F : FTy → Type} [FloatOps F] (main_arg0 : FVec F S16384x200 .f32) (main_arg1 : FVec F S200x64 .f32) (main_arg2 : FVec F S200x64 .f32) : IVec S_ 1 :=
  let main_v0 : FVec F S16384x200 .f32 := Host.absf main_arg0
  let main_cst : FVec F S_ .f32 := constant S_ .f32 0x7F800000#32
  let main_v1 : FVec F S16384x200 .f32 := broadcastInDim S16384x200 ![] bcast_S_S16384x200 main_cst
  let main_v2 : IVec S16384x200 1 := cmpf .olt main_v0 main_v1
  let main_c : IVec S_ 1 := constantI S_ 1 1#1
  let main_v3 : IVec S_ 1 := (fun x v => Host.reduce IntOp.andi x v reducesTo_S16384x200_S_d0_1 h_S_) main_v2 main_c
  let main_v4 : FVec F S200x64 .f32 := Host.absf main_arg1
  let main_cst_0 : FVec F S_ .f32 := constant S_ .f32 0x7F800000#32
  let main_v5 : FVec F S200x64 .f32 := broadcastInDim S200x64 ![] bcast_S_S200x64 main_cst_0
  let main_v6 : IVec S200x64 1 := cmpf .olt main_v4 main_v5
  let main_c_1 : IVec S_ 1 := constantI S_ 1 1#1
  let main_v7 : IVec S_ 1 := (fun x v => Host.reduce IntOp.andi x v reducesTo_S200x64_S_d0_1 h_S_) main_v6 main_c_1
  let main_v8 : IVec S_ 1 := andi main_v3 main_v7
  let main_v9 : FVec F S200x64 .f32 := Host.absf main_arg2
  let main_cst_2 : FVec F S_ .f32 := constant S_ .f32 0x7F800000#32
  let main_v10 : FVec F S200x64 .f32 := broadcastInDim S200x64 ![] bcast_S_S200x64 main_cst_2
  let main_v11 : IVec S200x64 1 := cmpf .olt main_v9 main_v10
  let main_c_3 : IVec S_ 1 := constantI S_ 1 1#1
  let main_v12 : IVec S_ 1 := (fun x v => Host.reduce IntOp.andi x v reducesTo_S200x64_S_d0_1 h_S_) main_v11 main_c_3
  let main_v13 : IVec S_ 1 := andi main_v8 main_v12
  main_v13
-- ==== Kernel.lean ====
abbrev S16384x200 : Shape := ⟨2, ![16384, 200]⟩
abbrev S200x64 : Shape := ⟨2, ![200, 64]⟩
abbrev S16384x200x64 : Shape := ⟨3, ![16384, 200, 64]⟩
abbrev S128x200 : Shape := ⟨2, ![128, 200]⟩
abbrev S128x200x64 : Shape := ⟨3, ![128, 200, 64]⟩
abbrev S128x200x1 : Shape := ⟨3, ![128, 200, 1]⟩
abbrev S1x200x64 : Shape := ⟨3, ![1, 200, 64]⟩

abbrev nBuf : Space → Nat
  | .hbm => 4
  | .vmem => 6
  | .smem => 0
  | _ => 0

abbrev bufTy : (tb : Table) → Fin (tcTables nBuf tb) → BufTy
  | .hbm, ⟨0, _⟩ => ⟨S16384x200, .f32⟩
  | .hbm, ⟨1, _⟩ => ⟨S200x64, .f32⟩
  | .hbm, ⟨2, _⟩ => ⟨S200x64, .f32⟩
  | .hbm, ⟨3, _⟩ => ⟨S16384x200x64, .f32⟩
  | .local _ .vmem, ⟨0, _⟩ => ⟨S128x200, .f32⟩
  | .local _ .vmem, ⟨1, _⟩ => ⟨S128x200, .f32⟩
  | .local _ .vmem, ⟨2, _⟩ => ⟨S200x64, .f32⟩
  | .local _ .vmem, ⟨3, _⟩ => ⟨S200x64, .f32⟩
  | .local _ .vmem, ⟨4, _⟩ => ⟨S128x200x64, .f32⟩
  | .local _ .vmem, ⟨5, _⟩ => ⟨S128x200x64, .f32⟩
  | _, _ => ⟨S16384x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S200x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x200x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x200_S128x200_0_0 : ∀ a, (![0, 0] : Fin 2 → Nat) a + S128x200.size a ≤ S128x200.size a
  h_S128x200 : 0 < S128x200.numel
  inb_S200x64_S200x64_0_0 : ∀ a, (![0, 0] : Fin 2 → Nat) a + S200x64.size a ≤ S200x64.size a
  h_S200x64 : 0 < S200x64.numel
  shapeCasts_S128x200_S128x200x1 : S128x200.ShapeCasts S128x200x1
  shapeCasts_S200x64_S1x200x64 : S200x64.ShapeCasts S1x200x64
  broadcasts_S128x200x1_S128x200x64 : S128x200x1.Broadcasts S128x200x64
  broadcasts_S1x200x64_S128x200x64 : S1x200x64.Broadcasts S128x200x64
  inb_S128x200x64_S128x200x64_0_0_0 : ∀ a, (![0, 0, 0] : Fin 3 → Nat) a + S128x200x64.size a ≤ S128x200x64.size a
  h_S128x200x64 : 0 < S128x200x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x200.size a ≤ S16384x200.size a
  hwx0_0 : ∀ i : grid0.Coords, EltTy.bits .f32 = 32 ∨ (Rect.block (s := S16384x200) S128x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x64.size a ≤ S200x64.size a
  hwx0_1 : ∀ i : grid0.Coords, EltTy.bits .f32 = 32 ∨ (Rect.block (s := S200x64) S200x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x64.size a ≤ S200x64.size a
  hwx0_2 : ∀ i : grid0.Coords, EltTy.bits .f32 = 32 ∨ (Rect.block (s := S200x64) S200x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x200x64.size a ≤ S16384x200x64.size a
  hwx0_3 : ∀ i : grid0.Coords, EltTy.bits .f32 = 32 ∨ (Rect.block (s := S16384x200x64) S128x200x64.size (cc0_transform_3 i) (hinb0_3 i)).WholeWords (EltTy.packing .f32)

variable [Facts₀]

abbrev win0_0 : Pipeline.Window sig grid0 :=
  Pipeline.Window.ofSpec (Memref.whole main_arg0) S128x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x200x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x200 : Shape := ⟨2, ![16384, 200]⟩
abbrev S200x64 : Shape := ⟨2, ![200, 64]⟩
abbrev S16384x200x1 : Shape := ⟨3, ![16384, 200, 1]⟩
abbrev S1x200x64 : Shape := ⟨3, ![1, 200, 64]⟩
abbrev S16384x200x64 : Shape := ⟨3, ![16384, 200, 64]⟩

abbrev nBuf : Space → Nat
  | .hbm => 11
  | .vmem => 0
  | .smem => 0
  | _ => 0

abbrev bufTy : (tb : Table) → Fin (tcTables nBuf tb) → BufTy
  | .hbm, ⟨0, _⟩ => ⟨S16384x200, .f32⟩
  | .hbm, ⟨1, _⟩ => ⟨S200x64, .f32⟩
  | .hbm, ⟨2, _⟩ => ⟨S200x64, .f32⟩
  | .hbm, ⟨3, _⟩ => ⟨S16384x200x1, .f32⟩
  | .hbm, ⟨4, _⟩ => ⟨S1x200x64, .f32⟩
  | .hbm, ⟨5, _⟩ => ⟨S16384x200x64, .f32⟩
  | .hbm, ⟨6, _⟩ => ⟨S16384x200x64, .f32⟩
  | .hbm, ⟨7, _⟩ => ⟨S16384x200x64, .f32⟩
  | .hbm, ⟨8, _⟩ => ⟨S1x200x64, .f32⟩
  | .hbm, ⟨9, _⟩ => ⟨S16384x200x64, .f32⟩
  | .hbm, ⟨10, _⟩ => ⟨S16384x200x64, .f32⟩
  | _, _ => ⟨S16384x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S16384x200_S16384x200x1_0_1 : S16384x200.BroadcastsInDim S16384x200x1 (![0, 1] : Fin 2 → Fin S16384x200x1.rank)
  bcast_S200x64_S1x200x64_1_2 : S200x64.BroadcastsInDim S1x200x64 (![1, 2] : Fin 2 → Fin S1x200x64.rank)
  bcast_S16384x200x1_S16384x200x64_0_1_2 : S16384x200x1.BroadcastsInDim S16384x200x64 (![0, 1, 2] : Fin 3 → Fin S16384x200x64.rank)
  bcast_S1x200x64_S16384x200x64_0_1_2 : S1x200x64.BroadcastsInDim S16384x200x64 (![0, 1, 2] : Fin 3 → Fin S16384x200x64.rank)

variable [Facts₀]

class Facts : Prop extends Facts₀ where

variable [Facts]
-- ==== Proof.Embed.lean ====
/-
  The function this certificate is about. Every row of `x` holds 200 scalar features; feature `i` has its own
  affine map from the scalars into 64 dimensions, with slope `w[i, ·]` and intercept `b[i, ·]`:

      out[r, i, e] = x[r, i] · w[i, e] + b[i, e]                 (over the extended reals).

  It is stated once, for ANY number of rows, so that one definition describes the whole array (16384 rows) and a
  block of it (128 rows). Rows do not interact and `w`, `b` are shared by all of them, so the rows `k·128 … k·128+127`
  of the whole-array function are the function of those rows of `x` alone: that is all the tiling of the kernel uses.
  No law of arithmetic is needed anywhere below: both programs multiply first and add second, so the two sides are the
  same expression entry by entry, infinities included.
-/
import Idealize.ShloMosaic.PureOps.Ideal
import Idealize.ShloMosaic.Lib.ValueIdx

noncomputable section

namespace Cert.Embed

open Idealize.ShloMosaic Idealize.ShloMosaic.ValueIdx

/-- `out[r, i, e] = x[r, i] · w[i, e] + b[i, e]` over `R` rows. -/
def embed {R : ℕ} (x : Vec Ideal ⟨2, ![R, 200]⟩ .f32) (w b : Vec Ideal ⟨2, ![200, 64]⟩ .f32) :
    Vec Ideal ⟨3, ![R, 200, 64]⟩ .f32 :=
  fun j => x (ix2 (j 0) (j 1)) * w (ix2 (j 1) (j 2)) + b (ix2 (j 1) (j 2))

/-- The entry at row `r`, feature `i`, dimension `e`. -/
theorem embed_ix3 {R : ℕ} (x : Vec Ideal ⟨2, ![R, 200]⟩ .f32) (w b : Vec Ideal ⟨2, ![200, 64]⟩ .f32)
    (r : Fin R) (i : Fin 200) (e : Fin 64) :
    embed x w b (ix3 r i e) = x (ix2 r i) * w (ix2 i e) + b (ix2 i e) := rfl

/-- An entry depends on `x` only through the one scalar `x[r, i]`, and on `w`, `b` only through `w[i, e]`, `b[i, e]`:
    two triples of arrays that agree at those three places give the same entry, whatever their numbers of rows. -/
theorem embed_congr {R R' : ℕ} (x : Vec Ideal ⟨2, ![R, 200]⟩ .f32) (w b : Vec Ideal ⟨2, ![200, 64]⟩ .f32)
    (x' : Vec Ideal ⟨2, ![R', 200]⟩ .f32) (w' b' : Vec Ideal ⟨2, ![200, 64]⟩ .f32)
    (j : (⟨3, ![R, 200, 64]⟩ : Shape).Idx) (j' : (⟨3, ![R', 200, 64]⟩ : Shape).Idx)
    (hx : x (ix2 (j 0) (j 1)) = x' (ix2 (j' 0) (j' 1)))
    (hw : w (ix2 (j 1) (j 2)) = w' (ix2 (j' 1) (j' 2)))
    (hb : b (ix2 (j 1) (j 2)) = b' (ix2 (j' 1) (j' 2))) :
    embed x w b j = embed x' w' b' j' := by
  show x (ix2 (j 0) (j 1)) * w (ix2 (j 1) (j 2)) + b (ix2 (j 1) (j 2))
    = x' (ix2 (j' 0) (j' 1)) * w' (ix2 (j' 1) (j' 2)) + b' (ix2 (j' 1) (j' 2))
  rw [hx, hw, hb]

end Cert.Embed

end
-- ==== Proof.KernelEmbed.lean ====
/-
  The kernel's result array is `embed` of its arguments.

  The grid has 128 points. Point `t` is handed rows `128·t … 128·t + 127` of `x`, all of `w` and all of `b`, and writes
  back rows `128·t … 128·t + 127` of the result. What it writes is `embed` of the three blocks it was handed
  (`body_eq`: the body re-lays the blocks exactly as `embed` indexes them, then multiplies and adds). Because an entry of
  `embed` looks at one scalar of `x` in its own row and at `w`, `b` in no row at all, that block is the block of the
  whole-array `embed` (`flushed_eq`). Row `r` lies in the block of point `r / 128`, so the blocks cover the array
  (`cover`) and the array ends holding `embed` of the arguments (`final`, `run`).
-/
import proofs.«107263_j20598663151715_1_alg».proof.Proof.Gen.KernelIdeal.Value
import proofs.«107263_j20598663151715_1_alg».proof.Proof.Embed

noncomputable section

namespace Cert.KernelIdeal.KernelEmbed

open Cert.KernelIdeal Cert.KernelIdeal.Gen Idealize.ShloMosaic Idealize.ShloMosaic.TcCoe Idealize.SL.Sem
open Idealize.ShloMosaic.ValueIdx Cert.Embed
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl

/-- ONE GRID STEP: from blocks `X` (128 rows of `x`), `W`, `B` the body leaves `embed X W B` in the output block. -/
theorem body_eq (X : Vec Ideal S128x200 .f32) (W B : Vec Ideal S200x64 .f32) : out0_3 X W B = embed X W B := by
  funext y
  unfold out0_3
  rw [Value.canon3_eq]
  simp only [View.ld_unit_zero (S := S128x200) zero2, View.ld_unit_zero (S := S200x64) zero2]
  have e0 : Value.ix3_0 y = ix2 (y 0) (y 1) := funext fun a => Fin.ext (by match a with | ⟨0, _⟩ => rfl | ⟨1, _⟩ => rfl)
  have e1 : Value.ix3_1 y = ix2 (y 1) (y 2) := funext fun a => Fin.ext (by match a with | ⟨0, _⟩ => rfl | ⟨1, _⟩ => rfl)
  have e2 : Value.ix3_2 y = ix2 (y 1) (y 2) := funext fun a => Fin.ext (by match a with | ⟨0, _⟩ => rfl | ⟨1, _⟩ => rfl)
  show X (Value.ix3_0 y) * W (Value.ix3_1 y) + B (Value.ix3_2 y) = X (ix2 (y 0) (y 1)) * W (ix2 (y 1) (y 2)) + B (ix2 (y 1) (y 2))
  rw [e0, e1, e2]
  rfl

/-- The printed index maps over the 128 grid points: `x`'s block and the result's block move together along the rows,
    the result's row-block index is the point's number, and every other block index is zero (`w` and `b` are handed over
    whole, and the blocks span the feature and dimension axes whole). -/
theorem idx_facts : ∀ t : Fin cfg0.N,
    win0_0.index t (0 : Fin 2) = win0_3.index t (0 : Fin 3)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val
    ∧ win0_3.index t (1 : Fin 3) = 0 ∧ win0_3.index t (2 : Fin 3) = 0 :=
  (by decide +kernel : ∀ t : Fin grid0.N, _)

/-- WHAT POINT `t` WRITES BACK is block `t` of `embed` of the argument arrays. -/
theorem flushed_eq (c : Dev nD) (t : Fin cfg0.N) :
    (dats m 0 c).flushed 3 t
      = ((cfg0.win 3).blk t).view.read (Elt Ideal) (embed (V m c main_arg0) (V m c main_arg1) (V m c main_arg2)) := by
  have hb := body_eq (iblk m c 0 t) (iblk m c 1 t) (iblk m c 2 t)
  rw [Value.flushed3, hb]
  obtain ⟨e0, e1, e2, e3, e4, e5, e6, e7, e8⟩ := idx_facts t
  funext y
  show embed (iblk m c 0 t) (iblk m c 1 t) (iblk m c 2 t) ((cfg0.win 3).xinj (grid0.coords t) y)
    = embed (V m c main_arg0) (V m c main_arg1) (V m c main_arg2) (((cfg0.win 3).blk t).view.emb y)
  have hy0 : (y 0).val < 128 := (y 0).isLt
  have hy1 : (y 1).val < 200 := (y 1).isLt
  have hy2 : (y 2).val < 64 := (y 2).isLt
  refine embed_congr _ _ _ _ _ _ _ _ ?_ ?_ ?_
  · show V m c main_arg0 (((cfg0.win 0).blk t).view.emb (ix2 ⟨(y 0).val, hy0⟩ ⟨(y 1).val, hy1⟩)) = V m c main_arg0 _
    refine congrArg (V m c main_arg0) (funext fun a => Fin.ext ?_)
    match a with
    | ⟨0, _⟩ => show win0_0.index t (0 : Fin 2) * 128 + 1 * (y 0).val = win0_3.index t (0 : Fin 3) * 128 + 1 * (y 0).val; omega
    | ⟨1, _⟩ => show win0_0.index t (1 : Fin 2) * 200 + 1 * (y 1).val = win0_3.index t (1 : Fin 3) * 200 + 1 * (y 1).val; omega
  · show V m c main_arg1 (((cfg0.win 1).blk t).view.emb (ix2 ⟨(y 1).val, hy1⟩ ⟨(y 2).val, hy2⟩)) = V m c main_arg1 _
    refine congrArg (V m c main_arg1) (funext fun a => Fin.ext ?_)
    match a with
    | ⟨0, _⟩ => show win0_1.index t (0 : Fin 2) * 200 + 1 * (y 1).val = win0_3.index t (1 : Fin 3) * 200 + 1 * (y 1).val; omega
    | ⟨1, _⟩ => show win0_1.index t (1 : Fin 2) * 64 + 1 * (y 2).val = win0_3.index t (2 : Fin 3) * 64 + 1 * (y 2).val; omega
  · show V m c main_arg2 (((cfg0.win 2).blk t).view.emb (ix2 ⟨(y 1).val, hy1⟩ ⟨(y 2).val, hy2⟩)) = V m c main_arg2 _
    refine congrArg (V m c main_arg2) (funext fun a => Fin.ext ?_)
    match a with
    | ⟨0, _⟩ => show win0_2.index t (0 : Fin 2) * 200 + 1 * (y 1).val = win0_3.index t (1 : Fin 3) * 200 + 1 * (y 1).val; omega
    | ⟨1, _⟩ => show win0_2.index t (1 : Fin 2) * 64 + 1 * (y 2).val = win0_3.index t (2 : Fin 3) * 64 + 1 * (y 2).val; omega

/-- An index of the result array is in point `t`'s block iff each coordinate is in the block's range on its axis. -/
theorem mem_blk (t : Fin cfg0.N) (i : S16384x200x64.Idx) :
    i ∈ ((cfg0.win 3).blk t).view.set ↔ ∀ a : Fin 3, win0_3.index t a * S128x200x64.size a ≤ (i a).val
      ∧ (i a).val < win0_3.index t a * S128x200x64.size a + S128x200x64.size a := by
  show i ∈ ((View.whole main_v0).slice (win0_3.rect t)).set ↔ _
  rw [View.set_slice_whole, Rect.mem_set_unit]
  exact Iff.rfl

/-- THE BLOCKS COVER THE ARRAY: row `r` is in the block of point `r / 128`. -/
theorem cover (i : S16384x200x64.Idx) :
    ∃ t : Fin cfg0.N, (cfg0.win 3).flush t = true ∧ i ∈ ((cfg0.win 3).blk t).view.set := by
  have hi0 : (i 0).val < 16384 := (i 0).isLt
  have hi1 : (i 1).val < 200 := (i 1).isLt
  have hi2 : (i 2).val < 64 := (i 2).isLt
  have hN : cfg0.N = 128 := N_0
  have hlt : (i 0).val / 128 < cfg0.N := by rw [hN]; omega
  obtain ⟨e0, e1, e2, e3, e4, e5, e6, e7, e8⟩ := idx_facts ⟨(i 0).val / 128, hlt⟩
  have e6' : win0_3.index ⟨(i 0).val / 128, hlt⟩ (0 : Fin 3) = (i 0).val / 128 := e6
  refine ⟨⟨(i 0).val / 128, hlt⟩, flush0_3 _, ?_⟩
  rw [mem_blk]
  intro a
  match a with
  | ⟨0, _⟩ =>
    show win0_3.index ⟨(i 0).val / 128, hlt⟩ (0 : Fin 3) * 128 ≤ (i 0).val
      ∧ (i 0).val < win0_3.index ⟨(i 0).val / 128, hlt⟩ (0 : Fin 3) * 128 + 128
    omega
  | ⟨1, _⟩ =>
    show win0_3.index ⟨(i 0).val / 128, hlt⟩ (1 : Fin 3) * 200 ≤ (i 1).val
      ∧ (i 1).val < win0_3.index ⟨(i 0).val / 128, hlt⟩ (1 : Fin 3) * 200 + 200
    omega
  | ⟨2, _⟩ =>
    show win0_3.index ⟨(i 0).val / 128, hlt⟩ (2 : Fin 3) * 64 ≤ (i 2).val
      ∧ (i 2).val < win0_3.index ⟨(i 0).val / 128, hlt⟩ (2 : Fin 3) * 64 + 64
    omega

/-- THE ARRAY after the run: `embed` of the argument arrays, everywhere. -/
theorem final (c : Dev nD) :
    (dats m 0 c).arrAt 3 cfg0.N
      = embed (m ((c : Thread nD τ).loc main_arg0)) (m ((c : Thread nD τ).loc main_arg1)) (m ((c : Thread nD τ).loc main_arg2)) :=
  (dats m 0 c).arrAt_eq_of_cover 3 (embed (V m c main_arg0) (V m c main_arg1) (V m c main_arg2))
    (fun t _ => flushed_eq m c t) cover

/-- The kernel's run: every weakly fair execution ends with the result array at `embed` of the arguments, the arguments
    unchanged. -/
theorem run : θ_run defs (onTc (τ := τ) (main (F := Ideal))) ⟨m, fun _ => 0, ρ⟩ fun r => ∀ c : Dev nD,
      r.2.mem ((c : Thread nD τ).loc main_v0)
        = embed (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelEmbed

end
-- ==== Proof.RefEmbed.lean ====
/-
  The reference computes `embed` of its arguments.

  Its eight host operations only re-lay the arguments and then multiply and add: `x` gets a trailing unit axis and is
  repeated along the 64 dimensions, `w` and `b` get a leading unit axis and are repeated along the 16384 rows. Read at the
  entry (r, i, e), the first chain lands on `x[r, i]`, the other two on `w[i, e]` and `b[i, e]`: three index equations,
  after which the product-then-sum the program prints is `embed`'s own expression.
-/
import proofs.«107263_j20598663151715_1_alg».proof.Proof.Gen.ReferenceIdeal.Read
import proofs.«107263_j20598663151715_1_alg».proof.Proof.Embed

noncomputable section

namespace Cert.ReferenceIdeal.RefEmbed

open Cert.ReferenceIdeal Cert.ReferenceIdeal.Gen Cert.ReferenceIdeal.Read
open Idealize.ShloMosaic Idealize.ShloMosaic.ValueIdx Cert.Embed

/-- Entry (r, i, e) of `x` repeated along the last axis comes from `x[r, i]`. -/
theorem idx_x (r : Fin 16384) (i : Fin 200) (e : Fin 64) : idx_main_v0 (idx_main_v2 (ix3 r i e)) = ix2 r i :=
  funext fun a => Fin.ext (by match a with | ⟨0, _⟩ => rfl | ⟨1, _⟩ => rfl)

/-- Entry (r, i, e) of `w` repeated along the rows comes from `w[i, e]`. -/
theorem idx_w (r : Fin 16384) (i : Fin 200) (e : Fin 64) : idx_main_v1 (idx_main_v3 (ix3 r i e)) = ix2 i e :=
  funext fun a => Fin.ext (by match a with | ⟨0, _⟩ => rfl | ⟨1, _⟩ => rfl)

/-- Entry (r, i, e) of `b` repeated along the rows comes from `b[i, e]`. -/
theorem idx_b (r : Fin 16384) (i : Fin 200) (e : Fin 64) : idx_main_v5 (idx_main_v6 (ix3 r i e)) = ix2 i e :=
  funext fun a => Fin.ext (by match a with | ⟨0, _⟩ => rfl | ⟨1, _⟩ => rfl)

/-- The reference's last stage, as a function of the three arguments, is `embed`. -/
theorem reference_eq (x : (⟨S16384x200, .f32⟩ : BufTy).Contents (Elt Ideal)) (w b : (⟨S200x64, .f32⟩ : BufTy).Contents (Elt Ideal)) :
    val_main_v7 (F := Ideal) x w b = embed x w b := by
  funext j
  obtain ⟨r, i, e, rfl⟩ : ∃ (r : Fin 16384) (i : Fin 200) (e : Fin 64), j = ix3 r i e := ⟨j 0, j 1, j 2, eq_ix3 j⟩
  rw [val_main_v7_apply, val_main_v4_apply, val_main_v2_apply, val_main_v0_apply, val_main_v3_apply, val_main_v1_apply,
    val_main_v6_apply, val_main_v5_apply, idx_x, idx_w, idx_b]
  rfl

end Cert.ReferenceIdeal.RefEmbed

end
-- ==== Proof.lean ====
/-
  A Pallas kernel for 200 per-feature affine maps from the scalars into 64 dimensions, against its jnp reference:

      out[r, i, e] = x[r, i] · w[i, e] + b[i, e],      x : 16384 × 200,   w, b : 200 × 64,   out : 16384 × 200 × 64.

  The kernel walks the rows in 128 blocks of 128; at each block it repeats the block of `x` along the 64 dimensions and
  `w`, `b` along the 128 rows, multiplies and adds. The reference does the same re-laying on the whole arrays at once.
  Both multiply first and add second, so over the extended reals the two results are the same expression entry by entry:
  the proof uses no law of arithmetic and never opens the precondition (an infinite input gives the same, possibly
  undefined-looking, extended-real value on both sides).

  Proof/Embed.lean states the function once for any number of rows; Proof/KernelEmbed.lean shows the kernel's result
  array is that function of the arguments (one block per grid point, the blocks covering the array);
  Proof/RefEmbed.lean shows the reference's last stage is the same function. Here the five claims are put together:
  the two kernels' frames are their frame certificates, the reference's frame is its run with the result forgotten,
  nothing was rewritten in the idealized kernel, and the two runs end at the one function of agreeing arguments.
-/
import proofs.«107263_j20598663151715_1_alg».proof.Defs
import proofs.«107263_j20598663151715_1_alg».proof.Proof.Gen.Kernel
import proofs.«107263_j20598663151715_1_alg».proof.Proof.Gen.Kernel.Frame
import proofs.«107263_j20598663151715_1_alg».proof.Proof.Gen.KernelIdeal
import proofs.«107263_j20598663151715_1_alg».proof.Proof.Gen.KernelIdeal.Frame
import proofs.«107263_j20598663151715_1_alg».proof.Proof.Gen.ReferenceIdeal
import proofs.«107263_j20598663151715_1_alg».proof.Proof.Gen.ReferenceIdeal.Run
import proofs.«107263_j20598663151715_1_alg».proof.Proof.Gen.ReferenceIdeal.Read
import proofs.«107263_j20598663151715_1_alg».proof.Proof.Gen.Pre_finite_inputs
import proofs.«107263_j20598663151715_1_alg».proof.Proof.KernelEmbed
import proofs.«107263_j20598663151715_1_alg».proof.Proof.RefEmbed
import Idealize.ShloMosaic.Adequacy
import Idealize.ShloMosaic.Init

noncomputable section

namespace Cert.Proof

open Idealize.ShloMosaic Idealize.SL.Sem

/-- The kernel as printed runs, faults nowhere and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- From arguments that agree, the kernel's result array and the reference's result both end at `embed` of them. -/
theorem algebraic : Cert.algebraic_KernelIdeal_ReferenceIdeal := by
  intro m ρ m' ρ' _ hagree
  refine ⟨_, Cert.KernelIdeal.KernelEmbed.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v7_eq]
  exact Cert.ReferenceIdeal.RefEmbed.reference_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
